-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x700000 : Shape := ⟨2, ![2, 700000]⟩
abbrev S1x700000 : Shape := ⟨2, ![1, 700000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S2000x128 : Shape := ⟨2, ![2000, 128]⟩

abbrev nBuf : Space → Nat
  | .hbm => 114
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x100000, .i32⟩
  | .hbm, ⟨6, _⟩ => ⟨S1x1x1x100000, .i32⟩
  | .hbm, ⟨7, _⟩ => ⟨S2x1x1x100000, .i32⟩
  | .hbm, ⟨8, _⟩ => ⟨S2x100000, .i32⟩
  | .hbm, ⟨9, _⟩ => ⟨S2x700000, .i32⟩
  | .hbm, ⟨10, _⟩ => ⟨S1x700000, .i32⟩
  | .hbm, ⟨11, _⟩ => ⟨S700000, .i32⟩
  | .hbm, ⟨12, _⟩ => ⟨S1x700000, .i32⟩
  | .hbm, ⟨13, _⟩ => ⟨S700000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S700000, .i32⟩
  | .hbm, ⟨18, _⟩ => ⟨S700000, .i1⟩
  | .hbm, ⟨19, _⟩ => ⟨S_, .i32⟩
  | .hbm, ⟨20, _⟩ => ⟨S700000, .i32⟩
  | .hbm, ⟨21, _⟩ => ⟨S700000, .i32⟩
  | .hbm, ⟨22, _⟩ => ⟨S700000, .i32⟩
  | .hbm, ⟨23, _⟩ => ⟨S700000x1, .i32⟩
  | .hbm, ⟨24, _⟩ => ⟨S_, .f32⟩
  | .hbm, ⟨25, _⟩ => ⟨S700000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .i1⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000, .f32⟩
  | .hbm, ⟨56, _⟩ => ⟨S_, .i32⟩
  | .hbm, ⟨57, _⟩ => ⟨S700000, .i32⟩
  | .hbm, ⟨58, _⟩ => ⟨S700000, .i1⟩
  | .hbm, ⟨59, _⟩ => ⟨S_, .i32⟩
  | .hbm, ⟨60, _⟩ => ⟨S700000, .i32⟩
  | .hbm, ⟨61, _⟩ => ⟨S700000, .i32⟩
  | .hbm, ⟨62, _⟩ => ⟨S700000, .i32⟩
  | .hbm, ⟨63, _⟩ => ⟨S700000x1, .i32⟩
  | .hbm, ⟨64, _⟩ => ⟨S700000, .f32⟩
  | .hbm, ⟨65, _⟩ => ⟨S700000, .f32⟩
  | .hbm, ⟨66, _⟩ => ⟨S700000x1, .f32⟩
  | .hbm, ⟨67, _⟩ => ⟨S_, .f32⟩
  | .hbm, ⟨68, _⟩ => ⟨S100000x128, .f32⟩
  | .hbm, ⟨69, _⟩ => ⟨S_, .i32⟩
  | .hbm, ⟨70, _⟩ => ⟨S700000, .i32⟩
  | .hbm, ⟨71, _⟩ => ⟨S700000, .i1⟩
  | .hbm, ⟨72, _⟩ => ⟨S_, .i32⟩
  | .hbm, ⟨73, _⟩ => ⟨S700000, .i32⟩
  | .hbm, ⟨74, _⟩ => ⟨S700000, .i32⟩
  | .hbm, ⟨75, _⟩ => ⟨S700000, .i32⟩
  | .hbm, ⟨76, _⟩ => ⟨S700000x1, .i32⟩
  | .hbm, ⟨77, _⟩ => ⟨S700000x128, .f32⟩
  | .hbm, ⟨78, _⟩ => ⟨S700000x128, .f32⟩
  | .hbm, ⟨79, _⟩ => ⟨S700000x128, .f32⟩
  | .hbm, ⟨80, _⟩ => ⟨S_, .i32⟩
  | .hbm, ⟨81, _⟩ => ⟨S700000, .i32⟩
  | .hbm, ⟨82, _⟩ => ⟨S700000, .i1⟩
  | .hbm, ⟨83, _⟩ => ⟨S_, .i32⟩
  | .hbm, ⟨84, _⟩ => ⟨S700000, .i32⟩
  | .hbm, ⟨85, _⟩ => ⟨S700000, .i32⟩
  | .hbm, ⟨86, _⟩ => ⟨S700000, .i32⟩
  | .hbm, ⟨87, _⟩ => ⟨S700000x1, .i32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S_, .i32⟩
  | .hbm, ⟨92, _⟩ => ⟨S700000, .i32⟩
  | .hbm, ⟨93, _⟩ => ⟨S700000, .i1⟩
  | .hbm, ⟨94, _⟩ => ⟨S_, .i32⟩
  | .hbm, ⟨95, _⟩ => ⟨S700000, .i32⟩
  | .hbm, ⟨96, _⟩ => ⟨S700000, .i32⟩
  | .hbm, ⟨97, _⟩ => ⟨S700000, .i32⟩
  | .hbm, ⟨98, _⟩ => ⟨S700000x1, .i32⟩
  | .hbm, ⟨99, _⟩ => ⟨S700000x128, .f32⟩
  | .hbm, ⟨100, _⟩ => ⟨S700000x128, .f32⟩
  | .hbm, ⟨101, _⟩ => ⟨S700000x128, .f32⟩
  | .hbm, ⟨102, _⟩ => ⟨S_, .i32⟩
  | .hbm, ⟨103, _⟩ => ⟨S700000, .i32⟩
  | .hbm, ⟨104, _⟩ => ⟨S700000, .i1⟩
  | .hbm, ⟨105, _⟩ => ⟨S_, .i32⟩
  | .hbm, ⟨106, _⟩ => ⟨S700000, .i32⟩
  | .hbm, ⟨107, _⟩ => ⟨S700000, .i32⟩
  | .hbm, ⟨108, _⟩ => ⟨S700000, .i32⟩
  | .hbm, ⟨109, _⟩ => ⟨S700000x1, .i32⟩
  | .hbm, ⟨110, _⟩ => ⟨S100000x128, .f32⟩
  | .hbm, ⟨111, _⟩ => ⟨S128x128, .f32⟩
  | .hbm, ⟨112, _⟩ => ⟨S1x128, .f32⟩
  | .hbm, ⟨113, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_12 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_v47 : Ref sig .tc := ⟨.hbm, 71, rfl⟩
abbrev main_c_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_15 : Ref sig .tc := ⟨.hbm, 80, rfl⟩
abbrev main_v55 : Ref sig .tc := ⟨.hbm, 81, rfl⟩
abbrev main_v56 : Ref sig .tc := ⟨.hbm, 82, rfl⟩
abbrev main_c_16 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_17 : Ref sig .tc := ⟨.hbm, 89, rfl⟩
abbrev main_v62 : Ref sig .tc := ⟨.hbm, 90, rfl⟩
abbrev main_c_18 : Ref sig .tc := ⟨.hbm, 91, rfl⟩
abbrev main_v63 : Ref sig .tc := ⟨.hbm, 92, rfl⟩
abbrev main_v64 : Ref sig .tc := ⟨.hbm, 93, rfl⟩
abbrev main_c_19 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_20 : Ref sig .tc := ⟨.hbm, 102, rfl⟩
abbrev main_v72 : Ref sig .tc := ⟨.hbm, 103, rfl⟩
abbrev main_v73 : Ref sig .tc := ⟨.hbm, 104, rfl⟩
abbrev main_c_21 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x600000_S2x100000_S2x700000_d1 : Shape.Concatenates [S2x600000, S2x100000] S2x700000 1
  slices_S2x700000_S1x700000_0_0 : S2x700000.Slices ![0, 0] S1x700000
  shapeCasts_S1x700000_S700000 : S1x700000.ShapeCasts S700000
  slices_S2x700000_S1x700000_1_0 : S2x700000.Slices ![1, 0] S1x700000
  bcast_S_S100000 : S_.BroadcastsInDim S100000 (![] : Fin 0 → Fin S100000.rank)
  bcast_S_S700000 : S_.BroadcastsInDim S700000 (![] : Fin 0 → Fin S700000.rank)
  bcast_S700000_S700000x1_0 : S700000.BroadcastsInDim S700000x1 (![0] : Fin 1 → Fin S700000x1.rank)
  bcast_S_S100000x128 : S_.BroadcastsInDim S100000x128 (![] : Fin 0 → Fin S100000x128.rank)
  bcast_S700000x1_S700000x128_0_1 : S700000x1.BroadcastsInDim S700000x128 (![0, 1] : Fin 2 → Fin S700000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v78) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v80) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v81) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x700000 : Shape := ⟨2, ![2, 700000]⟩
abbrev S1x700000 : Shape := ⟨2, ![1, 700000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x100000, .i32⟩
  | .hbm, ⟨6, _⟩ => ⟨S1x1x1x100000, .i32⟩
  | .hbm, ⟨7, _⟩ => ⟨S2x1x1x100000, .i32⟩
  | .hbm, ⟨8, _⟩ => ⟨S2x100000, .i32⟩
  | .hbm, ⟨9, _⟩ => ⟨S2x700000, .i32⟩
  | .hbm, ⟨10, _⟩ => ⟨S1x700000, .i32⟩
  | .hbm, ⟨11, _⟩ => ⟨S700000, .i32⟩
  | .hbm, ⟨12, _⟩ => ⟨S1x700000, .i32⟩
  | .hbm, ⟨13, _⟩ => ⟨S700000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S700000, .i32⟩
  | .hbm, ⟨18, _⟩ => ⟨S700000, .i1⟩
  | .hbm, ⟨19, _⟩ => ⟨S_, .i32⟩
  | .hbm, ⟨20, _⟩ => ⟨S700000, .i32⟩
  | .hbm, ⟨21, _⟩ => ⟨S700000, .i32⟩
  | .hbm, ⟨22, _⟩ => ⟨S700000, .i32⟩
  | .hbm, ⟨23, _⟩ => ⟨S700000x1, .i32⟩
  | .hbm, ⟨24, _⟩ => ⟨S_, .f32⟩
  | .hbm, ⟨25, _⟩ => ⟨S700000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .i1⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000, .f32⟩
  | .hbm, ⟨56, _⟩ => ⟨S_, .i32⟩
  | .hbm, ⟨57, _⟩ => ⟨S700000, .i32⟩
  | .hbm, ⟨58, _⟩ => ⟨S700000, .i1⟩
  | .hbm, ⟨59, _⟩ => ⟨S_, .i32⟩
  | .hbm, ⟨60, _⟩ => ⟨S700000, .i32⟩
  | .hbm, ⟨61, _⟩ => ⟨S700000, .i32⟩
  | .hbm, ⟨62, _⟩ => ⟨S700000, .i32⟩
  | .hbm, ⟨63, _⟩ => ⟨S700000x1, .i32⟩
  | .hbm, ⟨64, _⟩ => ⟨S700000, .f32⟩
  | .hbm, ⟨65, _⟩ => ⟨S700000, .f32⟩
  | .hbm, ⟨66, _⟩ => ⟨S700000x1, .f32⟩
  | .hbm, ⟨67, _⟩ => ⟨S_, .f32⟩
  | .hbm, ⟨68, _⟩ => ⟨S100000x128, .f32⟩
  | .hbm, ⟨69, _⟩ => ⟨S_, .i32⟩
  | .hbm, ⟨70, _⟩ => ⟨S700000, .i32⟩
  | .hbm, ⟨71, _⟩ => ⟨S700000, .i1⟩
  | .hbm, ⟨72, _⟩ => ⟨S_, .i32⟩
  | .hbm, ⟨73, _⟩ => ⟨S700000, .i32⟩
  | .hbm, ⟨74, _⟩ => ⟨S700000, .i32⟩
  | .hbm, ⟨75, _⟩ => ⟨S700000, .i32⟩
  | .hbm, ⟨76, _⟩ => ⟨S700000x1, .i32⟩
  | .hbm, ⟨77, _⟩ => ⟨S700000x128, .f32⟩
  | .hbm, ⟨78, _⟩ => ⟨S700000x128, .f32⟩
  | .hbm, ⟨79, _⟩ => ⟨S700000x128, .f32⟩
  | .hbm, ⟨80, _⟩ => ⟨S_, .i32⟩
  | .hbm, ⟨81, _⟩ => ⟨S700000, .i32⟩
  | .hbm, ⟨82, _⟩ => ⟨S700000, .i1⟩
  | .hbm, ⟨83, _⟩ => ⟨S_, .i32⟩
  | .hbm, ⟨84, _⟩ => ⟨S700000, .i32⟩
  | .hbm, ⟨85, _⟩ => ⟨S700000, .i32⟩
  | .hbm, ⟨86, _⟩ => ⟨S700000, .i32⟩
  | .hbm, ⟨87, _⟩ => ⟨S700000x1, .i32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S_, .i32⟩
  | .hbm, ⟨92, _⟩ => ⟨S700000, .i32⟩
  | .hbm, ⟨93, _⟩ => ⟨S700000, .i1⟩
  | .hbm, ⟨94, _⟩ => ⟨S_, .i32⟩
  | .hbm, ⟨95, _⟩ => ⟨S700000, .i32⟩
  | .hbm, ⟨96, _⟩ => ⟨S700000, .i32⟩
  | .hbm, ⟨97, _⟩ => ⟨S700000, .i32⟩
  | .hbm, ⟨98, _⟩ => ⟨S700000x1, .i32⟩
  | .hbm, ⟨99, _⟩ => ⟨S700000x128, .f32⟩
  | .hbm, ⟨100, _⟩ => ⟨S700000x128, .f32⟩
  | .hbm, ⟨101, _⟩ => ⟨S700000x128, .f32⟩
  | .hbm, ⟨102, _⟩ => ⟨S_, .i32⟩
  | .hbm, ⟨103, _⟩ => ⟨S700000, .i32⟩
  | .hbm, ⟨104, _⟩ => ⟨S700000, .i1⟩
  | .hbm, ⟨105, _⟩ => ⟨S_, .i32⟩
  | .hbm, ⟨106, _⟩ => ⟨S700000, .i32⟩
  | .hbm, ⟨107, _⟩ => ⟨S700000, .i32⟩
  | .hbm, ⟨108, _⟩ => ⟨S700000, .i32⟩
  | .hbm, ⟨109, _⟩ => ⟨S700000x1, .i32⟩
  | .hbm, ⟨110, _⟩ => ⟨S100000x128, .f32⟩
  | .hbm, ⟨111, _⟩ => ⟨S128x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_12 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_v47 : Ref sig .tc := ⟨.hbm, 71, rfl⟩
abbrev main_c_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_15 : Ref sig .tc := ⟨.hbm, 80, rfl⟩
abbrev main_v55 : Ref sig .tc := ⟨.hbm, 81, rfl⟩
abbrev main_v56 : Ref sig .tc := ⟨.hbm, 82, rfl⟩
abbrev main_c_16 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_17 : Ref sig .tc := ⟨.hbm, 89, rfl⟩
abbrev main_v62 : Ref sig .tc := ⟨.hbm, 90, rfl⟩
abbrev main_c_18 : Ref sig .tc := ⟨.hbm, 91, rfl⟩
abbrev main_v63 : Ref sig .tc := ⟨.hbm, 92, rfl⟩
abbrev main_v64 : Ref sig .tc := ⟨.hbm, 93, rfl⟩
abbrev main_c_19 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_20 : Ref sig .tc := ⟨.hbm, 102, rfl⟩
abbrev main_v72 : Ref sig .tc := ⟨.hbm, 103, rfl⟩
abbrev main_v73 : Ref sig .tc := ⟨.hbm, 104, rfl⟩
abbrev main_c_21 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x600000_S2x100000_S2x700000_d1 : Shape.Concatenates [S2x600000, S2x100000] S2x700000 1
  slices_S2x700000_S1x700000_0_0 : S2x700000.Slices ![0, 0] S1x700000
  shapeCasts_S1x700000_S700000 : S1x700000.ShapeCasts S700000
  slices_S2x700000_S1x700000_1_0 : S2x700000.Slices ![1, 0] S1x700000
  bcast_S_S100000 : S_.BroadcastsInDim S100000 (![] : Fin 0 → Fin S100000.rank)
  bcast_S_S700000 : S_.BroadcastsInDim S700000 (![] : Fin 0 → Fin S700000.rank)
  bcast_S700000_S700000x1_0 : S700000.BroadcastsInDim S700000x1 (![0] : Fin 1 → Fin S700000x1.rank)
  bcast_S_S100000x128 : S_.BroadcastsInDim S100000x128 (![] : Fin 0 → Fin S100000x128.rank)
  bcast_S700000x1_S700000x128_0_1 : S700000x1.BroadcastsInDim S700000x128 (![0, 1] : Fin 2 → Fin S700000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x128_S100000x128_1_0_0_1_n_n_wf : DotDims.WF S100000x128 S128x128 S100000x128 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Head.lean ====
/-
  The linear head as one function of its three inputs, and the two arithmetic forms that compute it.

  For a feature matrix X (100000 rows, 128 columns), a weight matrix W (128 by 128) and a bias vector b (128 entries),
  the head's entry at row r and column j is

      head X W b (r, j) = (∑ q, X (r, q) · W (j, q)) + b j,

  that is, X times the transpose of W, plus b on every row. Over the extended reals this is a plain sum of products
  followed by one addition; nothing here needs the entries to be finite.

  Two computations produce it. The blocked one takes 2000 rows of X at a time, multiplies them by the transposed weight
  matrix Wt (so Wt (q, j) = W (j, q)) into an all-zero accumulator, and adds the one-row array holding b, repeated
  over the 2000 rows (`block_entry`): changes of float format in between are the identity at the ideal values. The
  whole-array one multiplies all of X by Wt and adds b broadcast over all rows (`whole_entry`).
-/
import Idealize.ShloMosaic.PureOps.Ideal.Laws
import Idealize.ShloMosaic.Lib.ValueIdx
import Idealize.ShloMosaic.Lib.ValueLayout
import Idealize.ShloMosaic.Lib.Pipeline.Value
import proofs.«178899_j74483322847409_1_alg».proof.Proof.LibDotPlain

noncomputable section

open scoped BigOperators

namespace Cert.Head

open Idealize.ShloMosaic Idealize.ShloMosaic.ValueIdx

/-- The linear head: row r, column j holds the inner product of row r of X with row j of W, plus b j. -/
def head (X : FVec Ideal ⟨2, ![100000, 128]⟩ .f32) (W : FVec Ideal ⟨2, ![128, 128]⟩ .f32) (b : FVec Ideal ⟨1, ![128]⟩ .f32) :
    FVec Ideal ⟨2, ![100000, 128]⟩ .f32 :=
  fun i => (∑ q : Fin 128, X (ix2 (i 0) q) * W (ix2 (i 1) q)) + b (ix1 (i 1))

/-- The head at an entry given by its row and its column. -/
theorem head_apply (X : FVec Ideal ⟨2, ![100000, 128]⟩ .f32) (W : FVec Ideal ⟨2, ![128, 128]⟩ .f32) (b : FVec Ideal ⟨1, ![128]⟩ .f32)
    (r : Fin 100000) (j : Fin 128) :
    head X W b (ix2 r j) = (∑ q : Fin 128, X (ix2 r q) * W (ix2 j q)) + b (ix1 j) := rfl

/-- One block of the blocked computation, at row p of the block and column j: the 2000 by 128 block x of X, cut to the
    narrower float format, times the 128 by 128 matrix wt, cut likewise, accumulated into zeros, plus the one-row array
    brow repeated over the rows. At the ideal values the cuts are the identity, the product into zeros is the sum of
    products, and the repeated row is read at its column. -/
theorem block_entry (d : DotDims ⟨2, ![2000, 128]⟩ ⟨2, ![128, 128]⟩ ⟨2, ![2000, 128]⟩) (hd : d = DotDims.plain 2000 128 128)
    (prec : Option ContractPrecision)
    (x : FVec Ideal ⟨2, ![2000, 128]⟩ .f32) (wt : FVec Ideal ⟨2, ![128, 128]⟩ .f32) (brow : FVec Ideal ⟨2, ![1, 128]⟩ .f32)
    (hx : FTy.bf16.bits < FTy.f32.bits)
    (hb : (⟨2, ![1, 128]⟩ : Shape).Broadcasts ⟨2, ![2000, 128]⟩) (p : Fin 2000) (j : Fin 128) :
    addf (matmul d prec (truncf .bf16 x hx) (truncf .bf16 wt hx) (constant ⟨2, ![2000, 128]⟩ .f32 0x00000000#32))
        (broadcastTo ⟨2, ![2000, 128]⟩ brow hb) (ix2 p j)
      = (∑ q : Fin 128, x (ix2 p q) * wt (ix2 q j)) + brow (ix2 (0 : Fin 1) j) := by
  subst hd
  rw [addf_apply, broadcastTo_1b_ab_apply]
  refine congrArg (· + brow (ix2 (0 : Fin 1) j)) ?_
  exact Cert.LibDotPlain.matmul_zero_plain 2000 128 128 prec (truncf .bf16 x hx) (truncf .bf16 wt hx) p j

/-- The whole-array computation at row r and column j: all of X times the 128 by 128 matrix wt, plus the array bfull that
    holds b j in column j of every row. -/
theorem whole_entry (d : DotDims ⟨2, ![100000, 128]⟩ ⟨2, ![128, 128]⟩ ⟨2, ![100000, 128]⟩) (hd : d = DotDims.plain 100000 128 128)
    (prec : Option ContractPrecision) (sched : HostSchedule)
    (X : FVec Ideal ⟨2, ![100000, 128]⟩ .f32) (wt : FVec Ideal ⟨2, ![128, 128]⟩ .f32) (bfull : FVec Ideal ⟨2, ![100000, 128]⟩ .f32)
    (r : Fin 100000) (j : Fin 128) :
    addf (FloatOps.dotGeneral d prec sched X wt) bfull (ix2 r j)
      = (∑ q : Fin 128, X (ix2 r q) * wt (ix2 q j)) + bfull (ix2 r j) := by
  subst hd
  rw [addf_apply]
  refine congrArg (· + bfull (ix2 r j)) ?_
  exact Cert.LibDotPlain.dotGeneral_plain 100000 128 128 prec sched X wt r j

end Cert.Head
-- ==== Proof.KernelValue.lean ====
/-
  What the blocked kernel leaves in its result array, as one function of the three arrays it is launched on.

  The kernel walks the 100000 rows in 50 blocks of 2000. At block t it is handed rows 2000 t … 2000 t + 1999 of the
  feature array, the whole transposed weight matrix and the whole one-row bias array; it writes rows
  2000 t … 2000 t + 1999 of the result. Row p of what it writes, column j, is the inner product of the block's row p
  with column j of the transposed weights, plus the bias row at column j (`pay_entry`). Since the block's row p is row
  2000 t + p of the feature array, every block is the restriction of ONE function of the whole arrays (`finalArr`), and
  the 50 blocks tile the result: row r lies in block r / 2000. So the result array ends holding that function.
-/
import proofs.«178899_j74483322847409_1_alg».proof.Proof.Gen.KernelIdeal.Value
import proofs.«178899_j74483322847409_1_alg».proof.Proof.Head

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The kernel's product is the plain one: 2000 by 128 times 128 by 128, the left factor's columns contracted with
    the right factor's rows. -/
theorem dims_plain : dot_S2000x128_S128x128_S2000x128_1_0_0_1_n_n = DotDims.plain 2000 128 128 := rfl

/-- The value the body stores, at row p and column j of the block, from the three blocks it loads. -/
theorem pay_entry (x0 : Vec Ideal S2000x128 .f32) (x1 : Vec Ideal S128x128 .f32) (x2 : Vec Ideal S1x128 .f32)
    (p : Fin 2000) (j : Fin 128) :
    k0_pay1 (F := Ideal) x0 x1 x2 (ix2 p j) = (∑ q : Fin 128, x0 (ix2 p q) * x1 (ix2 q j)) + x2 (ix2 (0 : Fin 1) j) := by
  unfold k0_pay1
  rw [shapeCast_self, shapeCast_self, shapeCast_self]
  exact Cert.Head.block_entry _ dims_plain none x0 x1 x2 _ _ p j

/-- The three arrays the region is launched on (the arrays of its three input windows: the propagated features, the
    transposed weights, the one-row bias), at their literal types. -/
abbrev feat (c : Dev nD) : FVec Ideal S100000x128 .f32 := V m c (Pipeline.arrRef spec0 0)
abbrev wts (c : Dev nD) : FVec Ideal S128x128 .f32 := V m c (Pipeline.arrRef spec0 1)
abbrev brow (c : Dev nD) : FVec Ideal S1x128 .f32 := V m c (Pipeline.arrRef spec0 2)

/-- For any feature array A, transposed weight matrix B and one-row bias array R: the array that holds, at row r and
    column j, the inner product of row r of A with column j of B, plus R at column j. -/
def blockHead (A : FVec Ideal S100000x128 .f32) (B : FVec Ideal S128x128 .f32) (R : FVec Ideal S1x128 .f32) :
    FVec Ideal S100000x128 .f32 :=
  fun i => (∑ q : Fin 128, A (ix2 (i 0) q) * B (ix2 q (i 1))) + R (ix2 (0 : Fin 1) (i 1))

theorem blockHead_apply (A : FVec Ideal S100000x128 .f32) (B : FVec Ideal S128x128 .f32) (R : FVec Ideal S1x128 .f32)
    (r : Fin 100000) (j : Fin 128) :
    blockHead A B R (ix2 r j) = (∑ q : Fin 128, A (ix2 r q) * B (ix2 q j)) + R (ix2 (0 : Fin 1) j) := rfl

/-- What the result array ends holding: `blockHead` of the three arrays the region is launched on. -/
def finalArr (c : Dev nD) : FVec Ideal S100000x128 .f32 := blockHead (feat m c) (wts m c) (brow m c)

theorem hz : (![0, 0] : Fin 2 → Nat) = fun _ => 0 := funext fun a => by fin_cases a <;> rfl

/-- The printed index maps over the 50 grid points: the feature and result windows are at block (t, 0), the weight and
    bias windows always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t is row 2000 t + p of the array. -/
def rowOf (t : Fin cfg0.N) (p : Fin 2000) : Fin 100000 := ⟨t.val * 2000 + p.val, by
  have ht : t.val < 50 := t.isLt
  have hp := p.isLt
  omega⟩

/-- Entry (p, j) of the result window's block t sits at (2000 t + p, j) of the result array. -/
theorem emb_out (t : Fin cfg0.N) (p : Fin 2000) (j : Fin 128) :
    ((cfg0.win 3).blk t).view.emb (ix2 p j) = ix2 (rowOf t p) j := by
  obtain ⟨-, -, -, -, -, -, e0, e1⟩ := idx_facts t
  funext a; apply Fin.ext
  match a with
  | ⟨0, _⟩ => show win0_3.index t (0 : Fin 2) * 2000 + 1 * p.val = t.val * 2000 + p.val; omega
  | ⟨1, _⟩ => show win0_3.index t (1 : Fin 2) * 128 + 1 * j.val = j.val; omega

/-- Entry (p, q) of the feature window's block t sits at (2000 t + p, q) of the feature array. -/
theorem emb_feat (t : Fin cfg0.N) (p : Fin 2000) (q : Fin 128) :
    ((cfg0.win 0).blk t).view.emb (ix2 p q) = ix2 (rowOf t p) q := by
  obtain ⟨e0, e1, -, -, -, -, -, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * q.val = q.val; omega

/-- The weight window's one block is the whole matrix: its entry (q, j) sits at (q, j). -/
theorem emb_wts (t : Fin cfg0.N) (q : Fin 128) (j : Fin 128) :
    ((cfg0.win 1).blk t).view.emb (ix2 q j) = ix2 q j := by
  obtain ⟨-, -, e0, e1, -, -, -, -⟩ := idx_facts t
  funext a; apply Fin.ext
  match a with
  | ⟨0, _⟩ => show win0_1.index t (0 : Fin 2) * 128 + 1 * q.val = q.val; omega
  | ⟨1, _⟩ => show win0_1.index t (1 : Fin 2) * 128 + 1 * j.val = j.val; omega

/-- The bias window's one block is the whole one-row array: its entry (u, j) sits at (u, j). -/
theorem emb_brow (t : Fin cfg0.N) (u : Fin 1) (j : Fin 128) :
    ((cfg0.win 2).blk t).view.emb (ix2 u j) = ix2 u j := by
  obtain ⟨-, -, -, -, e0, e1, -, -⟩ := idx_facts t
  funext a; apply Fin.ext
  match a with
  | ⟨0, _⟩ => show win0_2.index t (0 : Fin 2) * 1 + 1 * u.val = u.val; omega
  | ⟨1, _⟩ => show win0_2.index t (1 : Fin 2) * 128 + 1 * j.val = j.val; omega

/-- Any array read through the feature window's block t, at (p, q), is the array at (2000 t + p, q). -/
theorem read_feat (A : FVec Ideal S100000x128 .f32) (t : Fin cfg0.N) (p : Fin 2000) (q : Fin 128) :
    ((cfg0.win 0).blk t).view.read (Elt Ideal) A (ix2 p q) = A (ix2 (rowOf t p) q) := congrArg A (emb_feat t p q)

/-- Any array read through the weight window's one block is the array itself. -/
theorem read_wts (A : FVec Ideal S128x128 .f32) (t : Fin cfg0.N) (q : Fin 128) (j : Fin 128) :
    ((cfg0.win 1).blk t).view.read (Elt Ideal) A (ix2 q j) = A (ix2 q j) := congrArg A (emb_wts t q j)

/-- Any array read through the bias window's one block is the array itself. -/
theorem read_brow (A : FVec Ideal S1x128 .f32) (t : Fin cfg0.N) (u : Fin 1) (j : Fin 128) :
    ((cfg0.win 2).blk t).view.read (Elt Ideal) A (ix2 u j) = A (ix2 u j) := congrArg A (emb_brow t u j)

/-- The body's value on block t of any three arrays is block t of their `blockHead`: row p of the block is row
    2000 t + p of the feature array, and the other two windows hold their whole arrays. -/
theorem body_blocks (A : FVec Ideal S100000x128 .f32) (B : FVec Ideal S128x128 .f32) (R : FVec Ideal S1x128 .f32) (t : Fin cfg0.N) :
    k0_pay1 (F := Ideal) (((cfg0.win 0).blk t).view.read (Elt Ideal) A) (((cfg0.win 1).blk t).view.read (Elt Ideal) B)
        (((cfg0.win 2).blk t).view.read (Elt Ideal) R)
      = ((cfg0.win 3).blk t).view.read (Elt Ideal) (blockHead A B R) := by
  funext y
  obtain ⟨p, j, rfl⟩ : ∃ (p : Fin 2000) (j : Fin 128), y = ix2 p j := ⟨y 0, y 1, eq_ix2 y⟩
  refine (pay_entry _ _ _ p j).trans ?_
  show _ = blockHead A B R (((cfg0.win 3).blk t).view.emb (ix2 p j))
  rw [emb_out, blockHead_apply, read_brow]
  refine congrArg (· + R (ix2 (0 : Fin 1) j)) ?_
  exact Finset.sum_congr rfl fun q _ => by rw [read_feat, read_wts]

/-- The three input windows' blocks at point t are the reads of the three arrays through those blocks. -/
theorem iblk0 (c : Dev nD) (t : Fin cfg0.N) : iblk m c 0 t = ((cfg0.win 0).blk t).view.read (Elt Ideal) (feat m c) := rfl
theorem iblk1 (c : Dev nD) (t : Fin cfg0.N) : iblk m c 1 t = ((cfg0.win 1).blk t).view.read (Elt Ideal) (wts m c) := rfl
theorem iblk2 (c : Dev nD) (t : Fin cfg0.N) : iblk m c 2 t = ((cfg0.win 2).blk t).view.read (Elt Ideal) (brow m c) := rfl

/-- The body's one store covers the result window's whole buffer, so the buffer ends holding the stored value. -/
theorem out_blocks (x0 : Vec Ideal S2000x128 .f32) (x1 : Vec Ideal S128x128 .f32) (x2 : Vec Ideal S1x128 .f32) :
    out0_3 (F := Ideal) x0 x1 x2 = k0_pay1 (F := Ideal) x0 x1 x2 := by
  unfold out0_3
  rw [View.canon_unit_zero hz]
  simp only [View.ld_unit_zero (S := S2000x128) hz, View.ld_unit_zero (S := S128x128) hz, View.ld_unit_zero (S := S1x128) hz]

/-- The result window's blocks lie wholly inside the array, so a write-back writes the whole buffer. -/
theorem cut_out (t : Fin cfg0.N) (X : Vec Ideal S2000x128 .f32) : (cfg0.win 3).cut (grid0.coords t) X = X :=
  funext fun _ => rfl

/-- What point t writes back is block t of `finalArr`. -/
theorem flushed_eq (c : Dev nD) (t : Fin cfg0.N) :
    (dats m 0 c).flushed 3 t = ((cfg0.win 3).blk t).view.read (Elt Ideal) (finalArr m c) := by
  rw [Cert.KernelIdeal.Value.flushed3, iblk0 m c t, iblk1 m c t, iblk2 m c t, out_blocks, cut_out, body_blocks]
  rfl

/-- An index of the result array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v81).slice (win0_3.rect t)).set ↔ _
  rw [View.set_slice_whole, Rect.mem_set_unit]
  exact Iff.rfl

/-- Every index of the result array is in some point's block: row r is in block r / 2000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 2000, by show (i 0).val / 2000 < 50; omega⟩
  obtain ⟨-, -, -, -, -, -, e0, e1⟩ := idx_facts t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The result array after the run is `finalArr`. -/
theorem final (c : Dev nD) : (dats m 0 c).arrAt 3 cfg0.N = finalArr m c :=
  (dats m 0 c).arrAt_eq_of_cover 3 (finalArr m c) (fun t _ => flushed_eq m c t) cover

/-- The kernel's run: it terminates with the result array at `finalArr` and the four arguments unchanged. -/
theorem run : θ_run defs (onTc (τ := τ) (main (F := Ideal))) ⟨m, fun _ => 0, ρ⟩ fun r => ∀ c : Dev nD,
      r.2.mem ((c : Thread nD τ).loc main_v81) = finalArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Blocks
-- ==== Proof.KernelEntry.lean ====
/-
  What the kernel's region finds in the three arrays it is launched on, and hence what its result array ends holding.

  Before the region the host program computes, from the node features x and the edge list, the features propagated
  twice over the normalised graph; it transposes the weight matrix W and lays the bias vector b out as a one-row array.
  The propagation is the same sequence of host operations, literal for literal, as the reference program's, so its
  result is named here by the reference's own stage function for it (the propagated features as a function of x and the
  edge list) and never opened. The transposed weights read at (q, j) are W (j, q); the one-row bias read at (0, j) is
  b j. Substituting these three facts in the kernel's closed form gives the linear head of the propagated features.
-/
import proofs.«178899_j74483322847409_1_alg».proof.Proof.KernelValue
import proofs.«178899_j74483322847409_1_alg».proof.Proof.RefRead
import Idealize.ShloMosaic.Lib.StableHlo.Run
import Idealize.ShloMosaic.Lib.ValueLayout

set_option maxRecDepth 16384

noncomputable section

open scoped BigOperators

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

section AnyFloats

variable {F : FTy → Type} [FloatOps F]
variable (m : (ℓ : Loc nD τ sig) → Buf (Elt F) ℓ)

/-- The rewriting steps that read one host operation's result, or step past an operation that writes another buffer. -/
local macro "read_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The region finds the weight matrix transposed. -/
theorem wts_eq (c : Dev nD) :
    V m c (Pipeline.arrRef spec0 1) = transpose S128x128 [1, 0] (m ((c : Thread nD τ).loc main_arg2)) transposes_S128x128_S128x128_1_0 := by
  show StableHlo.after _ _ (Proc.devRef .tc main_v79) = _
  simp only [hostOps0, hostOps0_1, hostOps0_2, hostOps0_3, hostOps0_4, List.flatten_cons, List.flatten_nil, List.append_nil,
    List.cons_append, List.nil_append]
  after_results_simp

/-- The region finds the bias vector laid out as a one-row array. -/
theorem brow_eq (c : Dev nD) :
    V m c (Pipeline.arrRef spec0 2) = shapeCast S1x128 (m ((c : Thread nD τ).loc main_arg3)) shapeCasts_S128_S1x128 := by
  show StableHlo.after _ _ (Proc.devRef .tc main_v80) = _
  simp only [hostOps0, hostOps0_1, hostOps0_2, hostOps0_3, hostOps0_4, List.flatten_cons, List.flatten_nil, List.append_nil,
    List.cons_append, List.nil_append]
  after_results_simp
  rfl

set_option maxHeartbeats 40000000 in
/-- The region finds the features propagated twice over the graph: the same host operations as the reference's, so the
    reference's stage function of the node features and the edge list. -/
theorem feat_eq (c : Dev nD) :
    V m c (Pipeline.arrRef spec0 0)
      = Cert.ReferenceIdeal.ReadP.val_main_v78 (F := F) (m ((c : Thread nD τ).loc main_arg0)) (m ((c : Thread nD τ).loc main_arg1)) := by
  show StableHlo.after _ _ (Proc.devRef .tc main_v78) = _
  simp only [hostOps0, hostOps0_1, hostOps0_2, hostOps0_3, hostOps0_4, List.flatten_cons, List.flatten_nil, List.append_nil,
    List.cons_append, List.nil_append]
  after_results_simp
  read_results
  rfl

end AnyFloats

variable (m : (ℓ : Loc nD τ sig) → Buf (Elt Ideal) ℓ)

/-- With the weight matrix transposed and the bias laid out as one row, the blocked form is the linear head: the
    transposed weights at (q, j) are W (j, q) and the bias row at (0, j) is b j. -/
theorem blockHead_eq_head (X : FVec Ideal S100000x128 .f32) (W : FVec Ideal S128x128 .f32) (b : FVec Ideal S128 .f32)
    (h1 : S128x128.Transposes [1, 0] S128x128) (h2 : S128.ShapeCasts S1x128) :
    Cert.KernelIdeal.Blocks.blockHead X (transpose S128x128 [1, 0] W h1) (shapeCast S1x128 b h2) = Cert.Head.head X W b := by
  funext i
  obtain ⟨r, j, rfl⟩ : ∃ (r : Fin 100000) (j : Fin 128), i = ix2 r j := ⟨i 0, i 1, eq_ix2 i⟩
  rw [Cert.Head.head_apply, Cert.KernelIdeal.Blocks.blockHead_apply, shapeCast_a_1a_apply]
  refine congrArg (· + b (ix1 j)) ?_
  exact Finset.sum_congr rfl fun q _ => by rw [transpose_ix2_apply]

/-- The kernel's result array is the linear head of the propagated features, the weight matrix and the bias vector. -/
theorem finalArr_eq (c : Dev nD) :
    Cert.KernelIdeal.Blocks.finalArr m c
      = Cert.Head.head (Cert.ReferenceIdeal.ReadP.val_main_v78 (F := Ideal) (m ((c : Thread nD τ).loc main_arg0)) (m ((c : Thread nD τ).loc main_arg1)))
          (m ((c : Thread nD τ).loc main_arg2)) (m ((c : Thread nD τ).loc main_arg3)) := by
  unfold Cert.KernelIdeal.Blocks.finalArr
  rw [show Cert.KernelIdeal.Blocks.feat m c = _ from feat_eq (F := Ideal) m c,
    show Cert.KernelIdeal.Blocks.wts m c = _ from wts_eq (F := Ideal) m c,
    show Cert.KernelIdeal.Blocks.brow m c = _ from brow_eq (F := Ideal) m c]
  exact blockHead_eq_head _ _ _ _ _

end Cert.KernelIdeal.Entry
-- ==== Proof.RefValue.lean ====
/-
  The reference program's result is the linear head of the propagated features.

  The reference ends with three operations on the propagated features X: the product of X with the transposed weight
  matrix, the bias vector broadcast over all rows, and their sum. Read at row r and column j the product is the sum
  over q of X (r, q) times the transposed weights at (q, j), which is W (j, q); the broadcast bias is b j. That is the
  head's entry. The propagated features stay one opaque array throughout.
-/
import proofs.«178899_j74483322847409_1_alg».proof.Proof.RefRead
import proofs.«178899_j74483322847409_1_alg».proof.Proof.Head

noncomputable section

open scoped BigOperators

namespace Cert.ReferenceIdeal.RefHead

open Cert.ReferenceIdeal Cert.ReferenceIdeal.Gen Cert.ReferenceIdeal.ReadP Idealize.ShloMosaic Idealize.ShloMosaic.TcCoe
open Idealize.ShloMosaic.ValueIdx

/-- The reference's product is the plain one: 100000 by 128 times 128 by 128. -/
theorem dims_plain : dot_S100000x128_S128x128_S100000x128_1_0_0_1_n_n = DotDims.plain 100000 128 128 := rfl

/-- The bias vector broadcast to a row and then over all rows, read at (r, j), is b j. -/
theorem bias_apply (x3 : (⟨S128, .f32⟩ : BufTy).Contents (Elt Ideal)) (r : Fin 100000) (j : Fin 128) :
    val_main_v82 (F := Ideal) x3 (ix2 r j) = x3 (ix1 j) := by
  rw [val_main_v82_apply, val_main_v81_apply]
  exact congrArg x3 (funext fun a => match a with | ⟨0, _⟩ => rfl)

/-- The transposed weight matrix read at (q, j) is W (j, q). -/
theorem wts_apply (x2 : (⟨S128x128, .f32⟩ : BufTy).Contents (Elt Ideal)) (q j : Fin 128) :
    val_main_v79 (F := Ideal) x2 (ix2 q j) = x2 (ix2 j q) := by
  unfold val_main_v79
  exact transpose_ix2_apply x2 _ q j

/-- The reference's result, as a function of its four arguments, is the head of the propagated features. -/
theorem result_eq (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal)) :
    val_main_v83 (F := Ideal) x0 x1 x2 x3 = Cert.Head.head (val_main_v78 (F := Ideal) x0 x1) x2 x3 := by
  funext i
  obtain ⟨r, j, rfl⟩ : ∃ (r : Fin 100000) (j : Fin 128), i = ix2 r j := ⟨i 0, i 1, eq_ix2 i⟩
  rw [Cert.Head.head_apply]
  unfold val_main_v83 val_main_v80
  generalize val_main_v78 (F := Ideal) x0 x1 = X
  refine (Cert.Head.whole_entry _ dims_plain none _ X (val_main_v79 (F := Ideal) x2) (val_main_v82 (F := Ideal) x3) r j).trans ?_
  rw [bias_apply]
  refine congrArg (· + _) ?_
  exact Finset.sum_congr rfl fun q _ => by rw [wts_apply]

end Cert.ReferenceIdeal.RefHead
-- ==== Proof.lean ====
/-
  Two graph-propagation hops followed by a linear head: the kernel against its reference, over the extended reals.

  Both programs first propagate the node features x twice over the graph given by the edge list (self loops added,
  each edge weighted by powers of the in-degrees of its ends): a chain of integer index arithmetic, gathers and
  scatter-additions on the host, the same operations in the same order with the same constants in the two programs.
  Call the result X. The reference then returns X · Wᵀ + b as one matrix product and one broadcast addition. The
  kernel transposes W and lays b out as a row on the host, and computes the head in 50 blocks of 2000 rows: each block
  of X, cut to a narrower float format, times the transposed weights, cut likewise, accumulated from zero in the wide
  format, plus the bias row.

  At the ideal values a change of float format is the identity and a matrix product is the sum of products, so every
  entry of either result is

      (∑ q, X (r, q) · W (j, q)) + b j.

  The kernel's blocks are restrictions of this one function and tile the 100000 rows (Proof/KernelValue.lean); what the
  region is launched on is X, Wᵀ and the bias row (Proof/KernelEntry.lean); the reference's last three operations
  read at an entry give the same expression (Proof/RefValue.lean). No law of the extended reals beyond reading both
  sides at an index is needed, so the finiteness precondition is never opened; X is carried as one opaque array.

  The three frame claims are the generated frame runs (for the reference, its run with the result dropped); the
  idealization rewrote nothing, so the preservation claim is trivial.
-/
import proofs.«178899_j74483322847409_1_alg».proof.Defs
import proofs.«178899_j74483322847409_1_alg».proof.Proof.Gen.Kernel
import proofs.«178899_j74483322847409_1_alg».proof.Proof.Gen.Kernel.Frame
import proofs.«178899_j74483322847409_1_alg».proof.Proof.Gen.KernelIdeal
import proofs.«178899_j74483322847409_1_alg».proof.Proof.Gen.KernelIdeal.Frame
import proofs.«178899_j74483322847409_1_alg».proof.Proof.Gen.ReferenceIdeal
import proofs.«178899_j74483322847409_1_alg».proof.Proof.Gen.Pre_finite_inputs
import proofs.«178899_j74483322847409_1_alg».proof.Proof.KernelValue
import proofs.«178899_j74483322847409_1_alg».proof.Proof.KernelEntry
import proofs.«178899_j74483322847409_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the four arguments both programs end with the linear head of the propagated features
    in their result: the kernel block by block, the reference in one product. -/
theorem algebraic : Cert.algebraic_KernelIdeal_ReferenceIdeal := by
  intro m ρ m' ρ' _ hagree
  refine ⟨fun c => Cert.Head.head
      (Cert.ReferenceIdeal.ReadP.val_main_v78 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1)))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Entry.finalArr_eq m c), (h c).2⟩)
      (Cert.KernelIdeal.Blocks.run m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v83_eq, Cert.ReferenceIdeal.RefHead.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
